-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S256x256 : Shape := ⟨2, ![256, 256]⟩
abbrev S2048x256 : Shape := ⟨2, ![2048, 256]⟩
abbrev S8192x8192 : Shape := ⟨2, ![8192, 8192]⟩
abbrev S1024x256 : Shape := ⟨2, ![1024, 256]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x256, .bf16⟩
  | .hbm, ⟨4, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .f32⟩
  | .local _ .vmem, ⟨8, _⟩ => ⟨S1024x256, .f32⟩
  | .local _ .vmem, ⟨9, _⟩ => ⟨S1024x1024, .f32⟩
  | .local _ .vmem, ⟨10, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  dot_S2048x256_S256x256_S2048x256_1_1_0_0_n_n_wf : DotDims.WF S2048x256 S256x256 S2048x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256x256, .f32⟩
  | .hbm, ⟨4, _⟩ => ⟨S8192x256, .f32⟩
  | .hbm, ⟨5, _⟩ => ⟨S256x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S256x256_S256x256_1_0 : S256x256.Transposes [1, 0] S256x256
  transposes_S8192x256_S256x8192_1_0 : S8192x256.Transposes [1, 0] S256x8192
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  What both programs compute, as functions of the three argument arrays over the extended reals.

  With x : [8192, 256], W : [256, 256], y : [8192, 256]:
    projected x W (n, d) = Σ_k x(n, k) · W(d, k)            (x · Wᵀ, a linear layer with weight [out, in])
    scores x y W (n, m)  = σ( Σ_d projected x W (n, d) · y(m, d) )   (σ the logistic function, (x Wᵀ) · yᵀ inside)
  Both matrix products contract the LAST axis of both operands, so one function `rowsDot` (entry (r, c) of a · bᵀ)
  serves the whole arrays and every block of them.
-/
import Idealize.ShloMosaic.PureOps.Ideal
import Idealize.ShloMosaic.Lib.ValueIdx
import Idealize.ShloMosaic.Lib.IdealHost

noncomputable section

namespace Cert.Scores

open Idealize.ShloMosaic Idealize.ShloMosaic.ValueIdx

/-- Entry (r, c) of a · bᵀ for a : [R, 256], b : [C, 256]: row r of a against row c of b. -/
def rowsDot {R C : Nat} (a : (⟨2, ![R, 256]⟩ : Shape).Idx → EReal) (b : (⟨2, ![C, 256]⟩ : Shape).Idx → EReal)
    (r : Fin R) (c : Fin C) : EReal :=
  ∑ k : Fin 256, a (ix2 r k) * b (ix2 c k)

/-- x · Wᵀ. -/
def projected (x : (⟨2, ![8192, 256]⟩ : Shape).Idx → EReal) (W : (⟨2, ![256, 256]⟩ : Shape).Idx → EReal) :
    (⟨2, ![8192, 256]⟩ : Shape).Idx → EReal :=
  fun i => rowsDot x W (i 0) (i 1)

/-- The logistic function of a · bᵀ, entry by entry, for a : [8192, 256], b : [8192, 256]. -/
def sigmoidDot (a b : (⟨2, ![8192, 256]⟩ : Shape).Idx → EReal) : (⟨2, ![8192, 8192]⟩ : Shape).Idx → EReal :=
  fun i => Ideal.logistic (rowsDot a b (i 0) (i 1))

/-- σ((x · Wᵀ) · yᵀ). -/
def scores (x y : (⟨2, ![8192, 256]⟩ : Shape).Idx → EReal) (W : (⟨2, ![256, 256]⟩ : Shape).Idx → EReal) :
    (⟨2, ![8192, 8192]⟩ : Shape).Idx → EReal :=
  sigmoidDot (projected x W) y

theorem projected_apply (x : (⟨2, ![8192, 256]⟩ : Shape).Idx → EReal) (W : (⟨2, ![256, 256]⟩ : Shape).Idx → EReal)
    (n : Fin 8192) (d : Fin 256) : projected x W (ix2 n d) = rowsDot x W n d := rfl

theorem sigmoidDot_apply (a b : (⟨2, ![8192, 256]⟩ : Shape).Idx → EReal) (n m : Fin 8192) :
    sigmoidDot a b (ix2 n m) = Ideal.logistic (rowsDot a b n m) := rfl

/-- The logistic function spelt with a quotient, as a host program expands it: 1 / (1 + e^(-s)), the two ones
    given by their f32 words. -/
theorem logistic_eq_expanded (s : EReal) :
    Ideal.div (Ideal.ofBits .f32 0x3F800000#32) (Ideal.ofBits .f32 0x3F800000#32 + Ideal.exp (-s)) = Ideal.logistic s := by
  rw [Ideal.ofBits_one_f32]; rfl

end Cert.Scores

end
-- ==== Proof.Region0.lean ====
/-
  The first pallas_call (grid of 4 points, one per band of 2048 rows) leaves x · Wᵀ in its output array.

  At point t the body loads rows 2048·t … 2048·t + 2047 of x (all 256 columns) and the whole of W, multiplies the band
  by Wᵀ on the matrix unit into a zero accumulator — at the exact values a change of float format is the identity, so
  entry (p, q) of the product is Σ_k band(p, k) · W(q, k) — and stores it as band t of the output. Entry (p, q) of band t
  is therefore entry (2048·t + p, q) of x · Wᵀ; the four bands tile the array, so the array ends holding x · Wᵀ,
  whatever contents the three arrays had when the call was entered.
-/
import proofs.«142050_j70171175682175_1_alg».proof.Proof.Gen.KernelIdeal.Frame
import proofs.«142050_j70171175682175_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Scores
open Idealize.ShloMosaic Idealize.ShloMosaic.TcCoe Idealize.ShloMosaic.ValueIdx Idealize.SL.Sem
open Idealize.ShloMosaic.Pipeline (Dat)

/-! ## The matrix unit's product at an entry -/

theorem lhs_axis0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs_axis1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhs_axis0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs_axis1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- What the body stores, at entry (p, q): row p of the loaded band against row q of the loaded weight. -/
theorem stored_apply (x0 : Vec Ideal S2048x256 .f32) (x1 : Vec Ideal S256x256 .f32) (p : Fin 2048) (q : Fin 256) :
    k0_pay1 x0 x1 (ix2 p q) = rowsDot (R := 2048) (C := 256) x0 x1 p q := by
  unfold k0_pay1 rowsDot
  show matmul (F := Ideal) dot_S2048x256_S256x256_S2048x256_1_1_0_0_n_n none (truncf (F := Ideal) .bf16 x0 bitsLt_bf16_f32)
      (truncf (F := Ideal) .bf16 x1 bitsLt_bf16_f32) (constant (F := Ideal) S2048x256 .f32 0x00000000#32) (ix2 p q) = _
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p q) ((contrEquiv1 dot_S2048x256_S256x256_S2048x256_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x256_S2048x256_1_1_0_0_n_n.rhsIdx (ix2 p q) ((contrEquiv1 dot_S2048x256_S256x256_S2048x256_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]
  rfl

/-! ## A band of the product -/

/-- If the loaded band's row `y 0` is row `i 0` of `A`, and the loaded weight's row `y 1` is row `i 1` of `B`,
    what the body stores at `y` is entry `i` of A · Bᵀ. -/
theorem stored_eq_entry (x0 : Vec Ideal S2048x256 .f32) (x1 : Vec Ideal S256x256 .f32)
    (A : S8192x256.Idx → EReal) (B : S256x256.Idx → EReal) (y : S2048x256.Idx) (i : S8192x256.Idx)
    (h0 : ∀ k : Fin 256, x0 (ix2 (y 0) k) = A (ix2 (i 0) k))
    (h1 : ∀ k : Fin 256, x1 (ix2 (y 1) k) = B (ix2 (i 1) k)) :
    k0_pay1 x0 x1 y = projected A B i := by
  refine ((congrArg (k0_pay1 x0 x1) (eq_ix2 y)).trans (stored_apply x0 x1 (y 0) (y 1))).trans ?_
  show rowsDot x0 x1 (y 0) (y 1) = rowsDot A B (i 0) (i 1)
  unfold rowsDot
  exact Finset.sum_congr rfl fun k _ => by rw [h0 k, h1 k]

variable (V : (c : Dev nD) → (b : Ref sig .tc) → Buf (Elt Ideal) ((c : Thread nD τ).loc b))

theorem hz : (![0, 0] : Fin 2 → Nat) = fun _ => 0 := funext fun a => by fin_cases a <;> rfl

/-- Which block each window is on at point t: the band of x and of the output is band t, the weight is always whole. -/
theorem blocks_at : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x · Wᵀ of the contents the call finds in its two input arrays. -/
abbrev product (c : Dev nD) : S8192x256.Idx → EReal :=
  projected (V c main_arg0 : S8192x256.Idx → EReal) (V c main_arg2 : S256x256.Idx → EReal)

/-- What point t writes back is band t of x · Wᵀ. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2048x256) hz, View.ld_unit_zero (S := S256x256) hz]
  obtain ⟨e0, e1, e2, e3, e4, e5⟩ := blocks_at t
  funext j
  show k0_pay1 (iblk0 V c 0 t) (iblk0 V c 1 t) j = product V c (((cfg0.win 2).blk t).view.emb j)
  refine stored_eq_entry (iblk0 V c 0 t) (iblk0 V c 1 t) (V c main_arg0) (V c main_arg2) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 256 + 1 * k.val = k.val; omega
  · show V c main_arg2 (((cfg0.win 1).blk t).view.emb (ix2 (j 1) k)) = V c main_arg2 (ix2 ((((cfg0.win 2).blk t).view.emb j) 1) k)
    refine congrArg (V c main_arg2) (funext fun a => Fin.ext ?_)
    match a with
    | ⟨0, _⟩ => show win0_1.index t (0 : Fin 2) * 256 + 1 * (j 1).val = win0_2.index t (1 : Fin 2) * 256 + 1 * (j 1).val; omega
    | ⟨1, _⟩ => show win0_1.index t (1 : Fin 2) * 256 + 1 * k.val = k.val; omega

/-! ## The four bands tile the array -/

/-- Every band is some point's. -/
theorem bands_onto : ∀ q : Fin 4, ∃ t : Fin cfg0.N, win0_2.index t (0 : Fin 2) = q.val ∧ win0_2.index t (1 : Fin 2) = 0 :=
  (by decide +kernel : ∀ q : Fin 4, ∃ t : Fin grid0.N, win0_2.index t (0 : Fin 2) = q.val ∧ win0_2.index t (1 : Fin 2) = 0)

/-- An entry of the output array is in point t's band iff each coordinate is in the band's range on its axis. -/
theorem mem_band (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Row n lies in band n / 2048. -/
theorem covered (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht0, ht1⟩ := bands_onto ⟨(i 0).val / 2048, by omega⟩
  have ht0' : win0_2.index t (0 : Fin 2) = (i 0).val / 2048 := ht0
  refine ⟨t, flush0_2 t, ?_⟩
  rw [mem_band]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After the call its output array holds x · Wᵀ of what the call found in x and W. -/
theorem final (c : Dev nD) : (dat0 V c).arrAt 2 cfg0.N = product V c :=
  (dat0 V c).arrAt_eq_of_cover 2 (product V c) (fun t _ => flushed_eq V c t) covered

end Cert.KernelIdeal.Region0

end
-- ==== Proof.Region1.lean ====
/-
  The second pallas_call (an 8 × 8 grid of 1024 × 1024 tiles) leaves σ(a · yᵀ) in its output array, a the array the
  first call wrote and σ the logistic function.

  The point whose output tile is (I, J) loads rows 1024·I … of a and rows 1024·J … of y (all 256 columns of each),
  multiplies the first band by the transpose of the second on the matrix unit into a zero accumulator, applies the
  logistic function entry by entry and stores the tile. Entry (p, q) of tile (I, J) is therefore
  σ(Σ_d a(1024·I + p, d) · y(1024·J + q, d)), which is entry (1024·I + p, 1024·J + q) of σ(a · yᵀ); the 64 tiles
  tile the array.
-/
import proofs.«142050_j70171175682175_1_alg».proof.Proof.Gen.KernelIdeal.Frame
import proofs.«142050_j70171175682175_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Scores
open Idealize.ShloMosaic Idealize.ShloMosaic.TcCoe Idealize.ShloMosaic.ValueIdx Idealize.SL.Sem
open Idealize.ShloMosaic.Pipeline (Dat)

/-! ## The matrix unit's product at an entry -/

theorem lhs_axis0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_axis0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- What the body stores, at entry (p, q): the logistic function of row p of the first loaded band against row q of
    the second. -/
theorem stored_apply (x0 : Vec Ideal S1024x256 .bf16) (x1 : Vec Ideal S1024x256 .f32) (p q : Fin 1024) :
    k1_pay1 x0 x1 (ix2 p q) = Ideal.logistic (rowsDot (R := 1024) (C := 1024) x0 x1 p q) := by
  unfold k1_pay1 rowsDot
  show Ideal.logistic (matmul (F := Ideal) dot_S1024x256_S1024x256_S1024x1024_1_1_0_0_n_n none (shapeCast S1024x256 x0 shapeCasts_S1024x256_S1024x256)
      (truncf (F := Ideal) .bf16 x1 bitsLt_bf16_f32) (constant (F := Ideal) S1024x1024 .f32 0x00000000#32) (ix2 p q)) = _
  rw [shapeCast_self]
  refine congrArg Ideal.logistic ?_
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]
  rfl

/-! ## A tile of the result -/

/-- If the first loaded band's row `y 0` is row `i 0` of `A`, and the second's row `y 1` is row `i 1` of `B`,
    what the body stores at `y` is entry `i` of σ(A · Bᵀ). -/
theorem stored_eq_entry (x0 : Vec Ideal S1024x256 .bf16) (x1 : Vec Ideal S1024x256 .f32)
    (A B : S8192x256.Idx → EReal) (y : S1024x1024.Idx) (i : S8192x8192.Idx)
    (h0 : ∀ k : Fin 256, x0 (ix2 (y 0) k) = A (ix2 (i 0) k))
    (h1 : ∀ k : Fin 256, x1 (ix2 (y 1) k) = B (ix2 (i 1) k)) :
    k1_pay1 x0 x1 y = sigmoidDot A B i := by
  refine ((congrArg (k1_pay1 x0 x1) (eq_ix2 y)).trans (stored_apply x0 x1 (y 0) (y 1))).trans ?_
  show Ideal.logistic (rowsDot x0 x1 (y 0) (y 1)) = Ideal.logistic (rowsDot A B (i 0) (i 1))
  unfold rowsDot
  exact congrArg Ideal.logistic (Finset.sum_congr rfl fun k _ => by rw [h0 k, h1 k])

variable (V : (c : Dev nD) → (b : Ref sig .tc) → Buf (Elt Ideal) ((c : Thread nD τ).loc b))

theorem hz : (![0, 0] : Fin 2 → Nat) = fun _ => 0 := funext fun a => by fin_cases a <;> rfl

/-- Which block each window is on at point t: the first input's band follows the output tile's row index, the
    second input's band the tile's column index. -/
theorem blocks_at : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0 :=
  (by decide +kernel : ∀ t : Fin grid1.N, _)

/-- σ(a · yᵀ) of the contents the call finds in its two input arrays. -/
abbrev result (c : Dev nD) : S8192x8192.Idx → EReal :=
  sigmoidDot (V c main_v0 : S8192x256.Idx → EReal) (V c main_arg1 : S8192x256.Idx → EReal)

/-- What point t writes back is its tile of σ(a · yᵀ). -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S1024x256) hz]
  obtain ⟨e0, e1, e2, e3⟩ := blocks_at t
  funext j
  show k1_pay1 (iblk1 V c 0 t) (iblk1 V c 1 t) j = result V c (((cfg1.win 2).blk t).view.emb j)
  refine stored_eq_entry (iblk1 V c 0 t) (iblk1 V c 1 t) (V c main_v0) (V c main_arg1) j (((cfg1.win 2).blk t).view.emb j)
    (fun k => ?_) (fun k => ?_)
  · show V c main_v0 (((cfg1.win 0).blk t).view.emb (ix2 (j 0) k)) = V c main_v0 (ix2 ((((cfg1.win 2).blk t).view.emb j) 0) k)
    refine congrArg (V c main_v0) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 256 + 1 * k.val = k.val; omega
  · show V c main_arg1 (((cfg1.win 1).blk t).view.emb (ix2 (j 1) k)) = V c main_arg1 (ix2 ((((cfg1.win 2).blk t).view.emb j) 1) k)
    refine congrArg (V c main_arg1) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 256 + 1 * k.val = k.val; omega

/-! ## The 64 tiles tile the array -/

/-- Every tile is some point's. -/
theorem tiles_onto : ∀ q0 q1 : Fin 8, ∃ t : Fin cfg1.N, win1_2.index t (0 : Fin 2) = q0.val ∧ win1_2.index t (1 : Fin 2) = q1.val :=
  (by decide +kernel : ∀ q0 q1 : Fin 8, ∃ t : Fin grid1.N, win1_2.index t (0 : Fin 2) = q0.val ∧ win1_2.index t (1 : Fin 2) = q1.val)

/-- An entry of the output array is in point t's tile iff each coordinate is in the tile's range on its axis. -/
theorem mem_tile (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Entry (n, m) lies in tile (n / 1024, m / 1024). -/
theorem covered (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht0, ht1⟩ := tiles_onto ⟨(i 0).val / 1024, by omega⟩ ⟨(i 1).val / 1024, by omega⟩
  have ht0' : win1_2.index t (0 : Fin 2) = (i 0).val / 1024 := ht0
  have ht1' : win1_2.index t (1 : Fin 2) = (i 1).val / 1024 := ht1
  refine ⟨t, flush1_2 t, ?_⟩
  rw [mem_tile]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the call its output array holds σ(a · yᵀ) of what the call found in a and y. -/
theorem final (c : Dev nD) : (dat1 V c).arrAt 2 cfg1.N = result V c :=
  (dat1 V c).arrAt_eq_of_cover 2 (result V c) (fun t _ => flushed_eq V c t) covered

end Cert.KernelIdeal.Region1

end
-- ==== Proof.KernelValue.lean ====
/-
  The two pallas_calls composed: the first finds x and W as launched and leaves x · Wᵀ; the second finds that array
  and y as launched (the first call does not touch y) and leaves σ((x · Wᵀ) · yᵀ), which is `scores x y W`.
-/
import proofs.«142050_j70171175682175_1_alg».proof.Proof.KernelRun
import proofs.«142050_j70171175682175_1_alg».proof.Proof.Region0
import proofs.«142050_j70171175682175_1_alg».proof.Proof.Region1

set_option maxRecDepth 16384

noncomputable section

namespace Cert.KernelIdeal.Named

open Cert.KernelIdeal Cert.KernelIdeal.Gen Cert.Scores
open Idealize.ShloMosaic Idealize.ShloMosaic.TcCoe Idealize.SL.Sem

variable (m : (ℓ : Loc nD τ sig) → Buf (Elt Ideal) ℓ) (ρ : Dev nD → PrngReg)

/-- The second call finds x · Wᵀ of the launch contents in the first call's output array … -/
theorem entry1_projected (c : Dev nD) :
    (V1 m ρ c main_v0 : S8192x256.Idx → EReal)
      = projected (m ((c : Thread nD τ).loc main_arg0)) (m ((c : Thread nD τ).loc main_arg2)) :=
  (W1_arr m ρ c 2).trans (Region0.final (V0 m ρ) c)

/-- … and y as launched. -/
theorem entry1_y (c : Dev nD) : V1 m ρ c main_arg1 = m ((c : Thread nD τ).loc main_arg1) :=
  W1_of_ne m ρ c main_arg1 (by decide)

/-- The result buffer's final contents are `scores` of the launch contents of the three arguments. -/
theorem result_eq (c : Dev nD) :
    W2 m ρ c (Proc.devRef .tc main_v1)
      = scores (m ((c : Thread nD τ).loc main_arg0)) (m ((c : Thread nD τ).loc main_arg1)) (m ((c : Thread nD τ).loc main_arg2)) := by
  refine (W2_arr m ρ c 2).trans ((Region1.final (V1 m ρ) c).trans ?_)
  show sigmoidDot (V1 m ρ c main_v0) (V1 m ρ c main_arg1) = sigmoidDot (projected _ _) _
  rw [entry1_projected, entry1_y]

/-- The run, read: the result buffer ends at `scores` of the arguments, the arguments unchanged. -/
theorem run_scores : θ_run defs (onTc (τ := τ) (main (F := Ideal))) ⟨m, fun _ => 0, ρ⟩ (fun r => ∀ c : Dev nD,
      r.2.mem ((c.tc : Thread nD τ).loc main_v1)
        = scores (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run m ρ)

end Cert.KernelIdeal.Named

end
-- ==== Proof.RefScores.lean ====
/-
  The reference computes `scores`: it transposes W, multiplies x by it, transposes y, multiplies again, and
  applies 1 / (1 + e^(-s)) entry by entry. Read at entry (n, m): the inner product's entry (n, d) is
  Σ_k x(n, k) · Wᵀ(k, d) = Σ_k x(n, k) · W(d, k), the outer one's is Σ_d (…)(n, d) · yᵀ(d, m) = Σ_d (…)(n, d) · y(m, d),
  and the quotient is the logistic function of that sum.
-/
import proofs.«142050_j70171175682175_1_alg».proof.Proof.Gen.ReferenceIdeal.Run
import proofs.«142050_j70171175682175_1_alg».proof.Proof.Gen.ReferenceIdeal.Read
import proofs.«142050_j70171175682175_1_alg».proof.Proof.Spec

noncomputable section

namespace Cert.ReferenceIdeal.RefScores

open Cert.ReferenceIdeal Cert.ReferenceIdeal.Gen Cert.ReferenceIdeal.Read Cert.Scores
open Idealize.ShloMosaic Idealize.ShloMosaic.ValueIdx

/-- The reference's last stage is `scores` of the three arguments. -/
theorem result_eq (x0 x1 : (⟨S8192x256, .f32⟩ : BufTy).Contents (Elt Ideal)) (x2 : (⟨S256x256, .f32⟩ : BufTy).Contents (Elt Ideal)) :
    val_main_v9 (F := Ideal) x0 x1 x2 = scores x0 x1 x2 := by
  funext i
  obtain ⟨n, r, rfl⟩ : ∃ (n r : Fin 8192), i = ix2 n r := ⟨i 0, i 1, eq_ix2 i⟩
  rw [val_main_v9_apply, val_main_v8_apply, val_main_cst_0_apply, val_main_v7_apply, val_main_v6_apply, val_main_cst_apply,
    val_main_v5_apply, val_main_v4_apply, val_main_v3_apply]
  simp only [val_main_v1_apply, val_main_v2_apply, val_main_v0_apply]
  have e1 : ∀ (d k : Fin 256), lidx_main_v1 (lidx_main_v3 (ix2 n r) d) k = ix2 n k := fun d k =>
    funext fun a => Fin.ext (by match a with | ⟨0, _⟩ => rfl | ⟨1, _⟩ => rfl)
  have e2 : ∀ (d k : Fin 256), idx_main_v0 (ridx_main_v1 (lidx_main_v3 (ix2 n r) d) k) = ix2 d k := fun d k =>
    funext fun a => Fin.ext (by match a with | ⟨0, _⟩ => rfl | ⟨1, _⟩ => rfl)
  have e3 : ∀ d : Fin 256, idx_main_v2 (ridx_main_v3 (ix2 n r) d) = ix2 r d := fun d =>
    funext fun a => Fin.ext (by match a with | ⟨0, _⟩ => rfl | ⟨1, _⟩ => rfl)
  simp only [e1, e2, e3]
  show Ideal.div (Ideal.ofBits .f32 0x3F800000#32) (Ideal.ofBits .f32 0x3F800000#32
      + Ideal.exp (-(∑ d : Fin 256, (∑ k : Fin 256, x0 (ix2 n k) * x2 (ix2 d k)) * x1 (ix2 r d))))
    = Ideal.logistic (rowsDot (projected x0 x2) x1 n r)
  rw [logistic_eq_expanded]
  rfl

end Cert.ReferenceIdeal.RefScores

end
-- ==== Proof.lean ====
/-
  σ((x · Wᵀ) · yᵀ), computed by two pallas_calls, against the same expression in plain jnp.

  x : [8192, 256], y : [8192, 256], W : [256, 256]. The kernel's first call writes x · Wᵀ band by band (the matrix unit
  contracts the last axis of both operands), its second call writes the logistic function of that array times yᵀ tile
  by tile. The reference transposes W and y and uses two ordinary matrix products, then 1 / (1 + e^(-s)). Over the
  extended reals a change of float format is the identity, a matrix-unit product into a zero accumulator is the plain
  sum of products, and the logistic function is that quotient, so both programs compute
    scores x y W (n, m) = σ( Σ_d (Σ_k x(n, k) · W(d, k)) · y(m, d) )
  with the sums in the same shape on both sides: no rearrangement, hence no use of the inputs' finiteness.

  Proof/Spec.lean       the function `scores` and the logistic function's expanded spelling
  Proof/Region0.lean    the first call leaves x · Wᵀ
  Proof/Region1.lean    the second call leaves σ(a · yᵀ)
  Proof/KernelRun.lean  the kernel program's run with its result buffer named
  Proof/KernelValue.lean the two calls composed
  Proof/RefScores.lean  the reference's last stage is `scores`
-/
import proofs.«142050_j70171175682175_1_alg».proof.Defs
import proofs.«142050_j70171175682175_1_alg».proof.Proof.Gen.Kernel
import proofs.«142050_j70171175682175_1_alg».proof.Proof.Gen.Kernel.Skeleton
import proofs.«142050_j70171175682175_1_alg».proof.Proof.Gen.Kernel.Launch
import proofs.«142050_j70171175682175_1_alg».proof.Proof.Gen.Kernel.Points
import proofs.«142050_j70171175682175_1_alg».proof.Proof.Gen.Kernel.Frame
import proofs.«142050_j70171175682175_1_alg».proof.Proof.Gen.KernelIdeal
import proofs.«142050_j70171175682175_1_alg».proof.Proof.Gen.KernelIdeal.Skeleton
import proofs.«142050_j70171175682175_1_alg».proof.Proof.Gen.KernelIdeal.Launch
import proofs.«142050_j70171175682175_1_alg».proof.Proof.Gen.KernelIdeal.Points
import proofs.«142050_j70171175682175_1_alg».proof.Proof.Gen.KernelIdeal.Frame
import proofs.«142050_j70171175682175_1_alg».proof.Proof.Gen.ReferenceIdeal
import proofs.«142050_j70171175682175_1_alg».proof.Proof.Gen.ReferenceIdeal.Run
import proofs.«142050_j70171175682175_1_alg».proof.Proof.Gen.ReferenceIdeal.Read
import proofs.«142050_j70171175682175_1_alg».proof.Proof.Gen.Pre_finite_inputs
import proofs.«142050_j70171175682175_1_alg».proof.Proof.KernelValue
import proofs.«142050_j70171175682175_1_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `scores` of the arguments in their result buffers. -/
theorem algebraic : Cert.algebraic_KernelIdeal_ReferenceIdeal := by
  intro m ρ m' ρ' _ hagree
  refine ⟨fun c => Cert.Scores.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Named.run_scores m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefScores.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
